-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1x1x116250x128 : Shape := ⟨4, ![1, 1, 116250, 128]⟩
abbrev S64x1x1x128 : Shape := ⟨4, ![64, 1, 1, 128]⟩
abbrev S_ : Shape := ⟨0, ![]⟩

class Facts : Prop where
  bcast_S_S1x1x116250x128 : S_.BroadcastsInDim S1x1x116250x128 (![] : Fin 0 → Fin S1x1x116250x128.rank)
  reducesTo_S1x1x116250x128_S_d0_1_2_3 : S1x1x116250x128.ReducesTo [0, 1, 2, 3] S_
  h_S_ : 0 < S_.numel
  bcast_S_S64x1x1x128 : S_.BroadcastsInDim S64x1x1x128 (![] : Fin 0 → Fin S64x1x1x128.rank)
  reducesTo_S64x1x1x128_S_d0_1_2_3 : S64x1x1x128.ReducesTo [0, 1, 2, 3] S_

variable [Facts]

def fn {F : FTy → Type} [FloatOps F] (main_arg0 : FVec F S1x1x116250x128 .f32) (main_arg1 : FVec F S64x1x1x128 .f32) : IVec S_ 1 :=
  let main_v0 : FVec F S1x1x116250x128 .f32 := Host.absf main_arg0
  let main_cst : FVec F S_ .f32 := constant S_ .f32 0x7F800000#32
  let main_v1 : FVec F S1x1x116250x128 .f32 := broadcastInDim S1x1x116250x128 ![] bcast_S_S1x1x116250x128 main_cst
  let main_v2 : IVec S1x1x116250x128 1 := cmpf .olt main_v0 main_v1
  let main_c : IVec S_ 1 := constantI S_ 1 1#1
  let main_v3 : IVec S_ 1 := (fun x v => Host.reduce IntOp.andi x v reducesTo_S1x1x116250x128_S_d0_1_2_3 h_S_) main_v2 main_c
  let main_v4 : FVec F S64x1x1x128 .f32 := Host.absf main_arg1
  let main_cst_0 : FVec F S_ .f32 := constant S_ .f32 0x7F800000#32
  let main_v5 : FVec F S64x1x1x128 .f32 := broadcastInDim S64x1x1x128 ![] bcast_S_S64x1x1x128 main_cst_0
  let main_v6 : IVec S64x1x1x128 1 := cmpf .olt main_v4 main_v5
  let main_c_1 : IVec S_ 1 := constantI S_ 1 1#1
  let main_v7 : IVec S_ 1 := (fun x v => Host.reduce IntOp.andi x v reducesTo_S64x1x1x128_S_d0_1_2_3 h_S_) main_v6 main_c_1
  let main_v8 : IVec S_ 1 := andi main_v3 main_v7
  main_v8
-- ==== Kernel.lean ====
abbrev S1x1x116250x128 : Shape := ⟨4, ![1, 1, 116250, 128]⟩
abbrev S64x1x1x128 : Shape := ⟨4, ![64, 1, 1, 128]⟩
abbrev S116250x128 : Shape := ⟨2, ![116250, 128]⟩
abbrev S64x128 : Shape := ⟨2, ![64, 128]⟩
abbrev S64x116250 : Shape := ⟨2, ![64, 116250]⟩
abbrev S4096x128 : Shape := ⟨2, ![4096, 128]⟩
abbrev S64x4096 : Shape := ⟨2, ![64, 4096]⟩
abbrev S5x64x62x375 : Shape := ⟨4, ![5, 64, 62, 375]⟩

abbrev nBuf : Space → Nat
  | .hbm => 6
  | .vmem => 5
  | .smem => 0
  | _ => 0

abbrev bufTy : (tb : Table) → Fin (tcTables nBuf tb) → BufTy
  | .hbm, ⟨0, _⟩ => ⟨S1x1x116250x128, .f32⟩
  | .hbm, ⟨1, _⟩ => ⟨S64x1x1x128, .f32⟩
  | .hbm, ⟨2, _⟩ => ⟨S116250x128, .f32⟩
  | .hbm, ⟨3, _⟩ => ⟨S64x128, .f32⟩
  | .hbm, ⟨4, _⟩ => ⟨S64x116250, .f32⟩
  | .hbm, ⟨5, _⟩ => ⟨S5x64x62x375, .f32⟩
  | .local _ .vmem, ⟨0, _⟩ => ⟨S64x128, .f32⟩
  | .local _ .vmem, ⟨1, _⟩ => ⟨S4096x128, .f32⟩
  | .local _ .vmem, ⟨2, _⟩ => ⟨S4096x128, .f32⟩
  | .local _ .vmem, ⟨3, _⟩ => ⟨S64x4096, .f32⟩
  | .local _ .vmem, ⟨4, _⟩ => ⟨S64x4096, .f32⟩
  | _, _ => ⟨S1x1x116250x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![29], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S1x1x116250x128_S116250x128 : S1x1x116250x128.ShapeCasts S116250x128
  shapeCasts_S64x1x1x128_S64x128 : S64x1x1x128.ShapeCasts S64x128
  inb_S64x128_S64x128_0_0 : ∀ a, (![0, 0] : Fin 2 → Nat) a + S64x128.size a ≤ S64x128.size a
  h_S64x128 : 0 < S64x128.numel
  shapeCasts_S64x128_S64x128 : S64x128.ShapeCasts S64x128
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  inb_S64x4096_S64x4096_0_0 : ∀ a, (![0, 0] : Fin 2 → Nat) a + S64x4096.size a ≤ S64x4096.size a
  h_S64x4096 : 0 < S64x4096.numel
  shapeCasts_S64x116250_S5x64x62x375 : S64x116250.ShapeCasts S5x64x62x375
  dot_S64x128_S4096x128_S64x4096_1_1_0_0_n_n_wf : DotDims.WF S64x128 S4096x128 S64x4096 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S64x128.size a ≤ S64x128.size a
  hwx0_0 : ∀ i : grid0.Coords, EltTy.bits .f32 = 32 ∨ (Rect.block (s := S64x128) S64x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x128.size a < S116250x128.size a
  hwx0_1 : ∀ i : grid0.Coords, EltTy.bits .f32 = 32 ∨ (Rect.unit (s := S116250x128) (fun a => cc0_transform_1 i a * S4096x128.size a) (fun a => (Pipeline.Clip.of (cc0_transform_1 i a) (S4096x128.size a) (S116250x128.size a)).extent (S4096x128.size a)) fun a => Pipeline.Clip.inb (Pipeline.Clip.ok_of (hstart0_1 i a))).WholeWords (EltTy.packing .f32)
  hwxs0_1 : ∀ i : grid0.Coords, EltTy.bits .f32 = 32 ∨ (Rect.unit (s := S4096x128) (fun _ => 0) (fun a => (Pipeline.Clip.of (cc0_transform_1 i a) (S4096x128.size a) (S116250x128.size a)).extent (S4096x128.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S64x4096.size a < S64x116250.size a
  hwx0_2 : ∀ i : grid0.Coords, EltTy.bits .f32 = 32 ∨ (Rect.unit (s := S64x116250) (fun a => cc0_transform_2 i a * S64x4096.size a) (fun a => (Pipeline.Clip.of (cc0_transform_2 i a) (S64x4096.size a) (S64x116250.size a)).extent (S64x4096.size a)) fun a => Pipeline.Clip.inb (Pipeline.Clip.ok_of (hstart0_2 i a))).WholeWords (EltTy.packing .f32)
  hwxs0_2 : ∀ i : grid0.Coords, EltTy.bits .f32 = 32 ∨ (Rect.unit (s := S64x4096) (fun _ => 0) (fun a => (Pipeline.Clip.of (cc0_transform_2 i a) (S64x4096.size a) (S64x116250.size a)).extent (S64x4096.size a)) fun a => (Nat.zero_add _).trans_le (Pipeline.Clip.extent_le (Pipeline.Clip.ok_of (hstart0_2 i a)))).WholeWords (EltTy.packing .f32)

variable [Facts₀]

def dot_S64x128_S4096x128_S64x4096_1_1_0_0_n_n : DotDims S64x128 S4096x128 S64x4096 where
  lhsContracting := [1]
  rhsContracting := [1]
  lhsNonContracting := [0]
  rhsNonContracting := [0]
  lhsBatch := []
  rhsBatch := []
  wf := dot_S64x128_S4096x128_S64x4096_1_1_0_0_n_n_wf

abbrev win0_0 : Pipeline.Window sig grid0 :=
  Pipeline.Window.ofSpec (Memref.whole main_v1) S64x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v0) S4096x128.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v2) S64x4096.size cc0_transform_2 reads0_2 true false 2 stage0_2 sem0_2
    hrank0 hreads0_2 hstart0_2 nbuf0_2 (Memref.isWhole_whole _) hwx0_2 hwxs0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1x1x116250x128 : Shape := ⟨4, ![1, 1, 116250, 128]⟩
abbrev S64x1x1x128 : Shape := ⟨4, ![64, 1, 1, 128]⟩
abbrev S64x128 : Shape := ⟨2, ![64, 128]⟩
abbrev S116250x128 : Shape := ⟨2, ![116250, 128]⟩
abbrev S64x116250 : Shape := ⟨2, ![64, 116250]⟩
abbrev S5x64x62x375 : Shape := ⟨4, ![5, 64, 62, 375]⟩

abbrev nBuf : Space → Nat
  | .hbm => 6
  | .vmem => 0
  | .smem => 0
  | _ => 0

abbrev bufTy : (tb : Table) → Fin (tcTables nBuf tb) → BufTy
  | .hbm, ⟨0, _⟩ => ⟨S1x1x116250x128, .f32⟩
  | .hbm, ⟨1, _⟩ => ⟨S64x1x1x128, .f32⟩
  | .hbm, ⟨2, _⟩ => ⟨S64x128, .f32⟩
  | .hbm, ⟨3, _⟩ => ⟨S116250x128, .f32⟩
  | .hbm, ⟨4, _⟩ => ⟨S64x116250, .f32⟩
  | .hbm, ⟨5, _⟩ => ⟨S5x64x62x375, .f32⟩
  | _, _ => ⟨S1x1x116250x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]

class Facts₀ : Prop where
  shapeCasts_S64x1x1x128_S64x128 : S64x1x1x128.ShapeCasts S64x128
  shapeCasts_S1x1x116250x128_S116250x128 : S1x1x116250x128.ShapeCasts S116250x128
  shapeCasts_S64x116250_S5x64x62x375 : S64x116250.ShapeCasts S5x64x62x375
  dot_S64x128_S116250x128_S64x116250_1_1_0_0_n_n_wf : DotDims.WF S64x128 S116250x128 S64x116250 [1] [1] [0] [0] [] []

variable [Facts₀]

def dot_S64x128_S116250x128_S64x116250_1_1_0_0_n_n : DotDims S64x128 S116250x128 S64x116250 where
  lhsContracting := [1]
  rhsContracting := [1]
  lhsNonContracting := [0]
  rhsNonContracting := [0]
  lhsBatch := []
  rhsBatch := []
  wf := dot_S64x128_S116250x128_S64x116250_1_1_0_0_n_n_wf

class Facts : Prop extends Facts₀ where

variable [Facts]
-- ==== Proof.BitsBody.lean ====
/-
  The kernel body of the program as printed (read at words), once and for all staging buffers: two whole loads (the 64 x 128
  weight block, a 4096 x 128 block of rows of x), the product contracted over the 128 lanes, a dead load of
  the result's buffer and one whole store. Whatever the three buffers hold, the result's buffer ends at the
  body's one payload of the other two's contents, and those are left as they were.
-/
import proofs.«162560_j7292854468609_1_alg».proof.Proof.Gen.Kernel.Frame
import proofs.«162560_j7292854468609_1_alg».proof.Proof.Gen.Kernel.Skeleton
import Idealize.ShloMosaic.Lib.Pipeline.Value

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Every access of the body starts at the origin of its buffer. -/
theorem origin2 : (![0, 0] : Fin 2 → Nat) = fun _ => 0 := funext fun a => by fin_cases a <;> rfl

set_option maxHeartbeats 1000000 in
/-- The body on whole staging memrefs holding `x0` (weights), `x1` (rows of x) and anything (the result's): it runs
    to the continuation with the first two as they were and the third at the payload of `x0` and `x1`. -/
theorem sound_kernel (c : Dev nD) (E : Set ℕ) (i : grid0.Coords)
    (arg1 : Memref sig .tc .vmem S64x128 .f32) (harg1 : arg1.IsWhole)
    (arg2 : Memref sig .tc .vmem S4096x128 .f32) (harg2 : arg2.IsWhole)
    (arg3 : Memref sig .tc .vmem S64x4096 .f32) (harg3 : arg3.IsWhole)
    (x0 : Vec F S64x128 .f32) (x1 : Vec F S4096x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero origin2 inb_S64x4096_S64x4096_0_0 y⟩),
    View.canon_unit_zero origin2]
  simp only [View.readAt_eq_ld, View.ld_unit_zero (S := S64x128) origin2, View.ld_unit_zero (S := S4096x128) origin2]

end Cert.Kernel.Body

end
-- ==== Proof.BitsFrame.lean ====
/-
  The frame of the program as printed: it runs to the end, nothing faults, and the two argument arrays end as launched.
  Read at words the matrix unit's product is a function of its WHOLE right operand, and the last block of rows of x
  overhangs the array, so the staging rows past the array's end — words nothing names — reach every entry the model
  computes from that block. The frame needs none of those values: the arguments x and w are never a window's array
  (the windows stage their reshaped copies and the result), so here every window is forgotten — the body is handed
  its three buffers at any contents and hands them back at any contents — and the frame is read off the buffers the
  pipeline never touches. The one host line after the region writes only the final reshape's result.
-/
import proofs.«162560_j7292854468609_1_alg».proof.Proof.BitsBody
import Idealize.ShloMosaic.Lib.Pipeline.FrameSuffix

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Every window is forgotten: nothing the frame claims reads a staged array. -/
def forgetAll : Fin 3 → Bool := fun _ => true

/-- The proof data: the arrays as the region finds them; what the body leaves, unnamed; the scoped rest and the
    generator register as the invariant; nothing owed; full shares. -/
def dats (_ : Fin 1) (c : Dev nD) : Dat τ (Elt F) Unit ℕ (UR sig nD τ) ℕ cfg0 c where
  A w := V m c (Pipeline.arrRef spec0 w)
  after w t := Pipeline.Dat.unnamed (cfg := cfg0) w t
  Φ _ := Pipeline.ΦA spec0 c
  q _ := fullShare
  owed _ := 0

theorem A_eq (c : Dev nD) (w : Fin cfg0.W) : (dats m 0 c).A w = V m c (Pipeline.arrRef spec0 w) := by
  dsimp only [dats]

/-- What the body is called with at point `t`: each current staging buffer at some contents, -/
def bodyPre (c : Dev nD) (t : Fin cfg0.N) : sProp 𝕄 :=
  iprop((dats m 0 c).Φ t.castSucc ∗ (dats m 0 c).owesAt () t.castSucc
    ∗ (∃ X, owns (c : Thread nD τ) (st0_0 t) fullShare X)
    ∗ (∃ X, owns (c : Thread nD τ) (st0_1 t) fullShare X)
    ∗ (∃ X, owns (c : Thread nD τ) (st0_2 t) fullShare X))

/-- and what it returns: the same. -/
def bodyPost (c : Dev nD) (t : Fin cfg0.N) : sProp 𝕄 :=
  iprop((dats m 0 c).Φ t.succ ∗ (dats m 0 c).owesAt () t.succ
    ∗ (∃ X, owns (c : Thread nD τ) (st0_0 t) fullShare X)
    ∗ (∃ X, owns (c : Thread nD τ) (st0_1 t) fullShare X)
    ∗ (∃ X, owns (c : Thread nD τ) (st0_2 t) fullShare X))

/-- The body at any point, on whatever the three buffers hold. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = (dats m 0 c).Φ t.castSucc from rfl,
    show (dats m 0 c).owesAt () t.succ = (dats m 0 c).owesAt () t.castSucc from rfl]
  iintro ⟨HΦ, Ho, ⟨%X0, H0⟩, ⟨%X1, H1⟩, ⟨%X2, H2⟩⟩
  iapply (Cert.Kernel.Body.sound_kernel c Set.univ (grid0.coords t) _ _ _ _ _ _ X0 X1 _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexists _; iexact H0
  isplitl [H1]; · iexists _; iexact H1
  iexists _; iexact H2

/-- The library's body obligation with every window forgotten. -/
theorem body_obligation (c : Dev nD) : BodyObligation (dats (F := F) m 0 c) (defs₀ (F := F)) Variants.none () Set.univ forgetAll := fun t => by
  rw [bigSep_W0, bigSep_W0]
  exact sound_body m c t

/-- The buffers the line after the region writes: the final reshape's result. -/
def tailWrites : Finset (Ref sig .tc) := {main_v3}

theorem tail_writes : ∀ ops ∈ ([hostOps1] : List (List (HloOp τ sig (Elt F)))), ∀ op ∈ ops,
    ∀ b : Ref sig .tc, Proc.devRef .tc b ∈ op.writes → b ∈ tailWrites := by
  intro ops hops op hop b hb
  simp only [List.mem_cons, List.mem_nil_iff, or_false] at hops
  rcases hops with rfl
  simp only [hostOps1, List.mem_cons, List.mem_nil_iff, or_false] at hop
  rcases hop with rfl
  simp only [StableHlo.reshape_writes, Finset.mem_singleton] at hb
  exact Finset.mem_singleton.mpr (by_contra fun hne => StableHlo.devRef_ne_of_ne hne hb)

set_option backward.isDefEq.respectTransparency.types false in
/-- Every weakly fair execution of @main terminates, nothing faulting, and every unscoped buffer that is neither a
    window's array nor the reshape's result ends at what it held when the region was entered. -/
theorem run_main : θ_run defs (onTc (τ := τ) (main (F := F))) (s₀ m ρ)
    (Pipeline.RDat.FramePostR (cfgs 0) (fun c => (dats m 0 c).toRForget forgetAll) tailWrites (V m)) :=
  Pipeline.RDat.θ_run_frame_around_T cfgs (0 : Fin 1) launch0 defs₀ Variants.none (fun c => (dats m 0 c).toRForget forgetAll) tailWrites m ρ main
    (hbody := fun c => (body_obligation m c).toRForget) (hshare := fun c => ((dats m 0 c).toRForget forgetAll).share_full fun _ => rfl)
    (howed := fun _ _ => rfl) (V₀ := V0 m) (opss := [hostOps1]) (hsub := sfx_sub) (hfresh := sfx_fresh) (hkeep := sfx_keeps)
    (hT := tail_writes) (hmain := hmain m Variants.none) (hA := A_eq m) (hΦ := fun _ _ => rfl)

/-- The frame: x and w are such buffers, and no host line before the region writes them. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_arg0 (Finset.mem_sdiff.mpr ⟨Pipeline.mem_restRefs_of main_arg0 (by decide) (by decide), by decide⟩)).trans (V_main_arg0 m c),
     ((h c).2 main_arg1 (Finset.mem_sdiff.mpr ⟨Pipeline.mem_restRefs_of main_arg1 (by decide) (by decide), by decide⟩)).trans (V_main_arg1 m c)⟩)
    (run_main m ρ)

end Cert.Kernel.FrameProof

end
-- ==== Proof.IdealBody.lean ====
/-
  The kernel body of the idealized program, once and for all staging buffers: two whole loads (the 64 x 128
  weight block, a 4096 x 128 block of rows of x), the product contracted over the 128 lanes, a dead load of
  the result's buffer and one whole store. Whatever the three buffers hold, the result's buffer ends at the
  body's one payload of the other two's contents, and those are left as they were.
-/
import proofs.«162560_j7292854468609_1_alg».proof.Proof.Gen.KernelIdeal.Frame
import proofs.«162560_j7292854468609_1_alg».proof.Proof.Gen.KernelIdeal.Skeleton
import Idealize.ShloMosaic.Lib.Pipeline.Value

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- Every access of the body starts at the origin of its buffer. -/
theorem origin2 : (![0, 0] : Fin 2 → Nat) = fun _ => 0 := funext fun a => by fin_cases a <;> rfl

set_option maxHeartbeats 1000000 in
/-- The body on whole staging memrefs holding `x0` (weights), `x1` (rows of x) and anything (the result's): it runs
    to the continuation with the first two as they were and the third at the payload of `x0` and `x1`. -/
theorem sound_kernel (c : Dev nD) (E : Set ℕ) (i : grid0.Coords)
    (arg1 : Memref sig .tc .vmem S64x128 .f32) (harg1 : arg1.IsWhole)
    (arg2 : Memref sig .tc .vmem S4096x128 .f32) (harg2 : arg2.IsWhole)
    (arg3 : Memref sig .tc .vmem S64x4096 .f32) (harg3 : arg3.IsWhole)
    (x0 : Vec F S64x128 .f32) (x1 : Vec F S4096x128 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
              ∗ owns (c : Thread nD τ) arg3 fullShare (k0_pay1 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero origin2 inb_S64x4096_S64x4096_0_0 y⟩),
    View.canon_unit_zero origin2]
  simp only [View.readAt_eq_ld, View.ld_unit_zero (S := S64x128) origin2, View.ld_unit_zero (S := S4096x128) origin2]

end Cert.KernelIdeal.Body

end
-- ==== Proof.IdealPayload.lean ====
/-
  The body's one payload at the ideal instance, index by index. Changing the float format is the identity there, a
  shape cast to the same shape is the identity, and the matrix product into a zero accumulator is the plain sum:
  entry (f, r) of the block product is the sum over the 128 lanes k of W[f, k] * X[r, k] — each row of the 4096-row
  block of x dotted with each of the 64 weight rows.
-/
import proofs.«162560_j7292854468609_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Cert.KernelIdeal Cert.KernelIdeal.Gen Idealize.ShloMosaic Idealize.ShloMosaic.TcCoe Idealize.SL.Sem

/-- The weight entry that output entry `j = (f, r)` meets at lane `k`: (f, k). -/
abbrev wAt (j : S64x4096.Idx) (k : Fin 128) : S64x128.Idx := fun a => match a with
  | ⟨0, _⟩ => ⟨(j 0).val, (j 0).isLt⟩
  | ⟨1, _⟩ => ⟨k.val, k.isLt⟩
/-- The entry of the block of x it meets there: (r, k). -/
abbrev xAt (j : S64x4096.Idx) (k : Fin 128) : S4096x128.Idx := fun a => match a with
  | ⟨0, _⟩ => ⟨(j 1).val, (j 1).isLt⟩
  | ⟨1, _⟩ => ⟨k.val, k.isLt⟩

/-- The block product: each of the 64 weight rows dotted with each of the block's 4096 rows of x. -/
def blockDots (W : Vec Ideal S64x128 .f32) (X : Vec Ideal S4096x128 .f32) : Vec Ideal S64x4096 .f32 :=
  fun j => ∑ k : Fin 128, W (wAt j k) * X (xAt j k)

theorem lhs_axis0 (i : S64x4096.Idx) (q : dot_S64x128_S4096x128_S64x4096_1_1_0_0_n_n.contr.Idx) :
    (dot_S64x128_S4096x128_S64x4096_1_1_0_0_n_n.lhsIdx i q 0).val = (i 0).val := by
  unfold DotDims.lhsIdx
  rw [dif_neg (show ¬(0 : Fin S64x128.rank) ∈ dot_S64x128_S4096x128_S64x4096_1_1_0_0_n_n.lhsBatch by decide), dif_pos (show (0 : Fin S64x128.rank) ∈ dot_S64x128_S4096x128_S64x4096_1_1_0_0_n_n.lhsNonContracting by decide)]
  rfl
theorem lhs_axis1 (i : S64x4096.Idx) (q : dot_S64x128_S4096x128_S64x4096_1_1_0_0_n_n.contr.Idx) :
    (dot_S64x128_S4096x128_S64x4096_1_1_0_0_n_n.lhsIdx i q 1).val = (q ⟨0, by decide⟩).val :=
  dot_S64x128_S4096x128_S64x4096_1_1_0_0_n_n.lhsIdx_val_of_single rfl i q
theorem rhs_axis0 (i : S64x4096.Idx) (q : dot_S64x128_S4096x128_S64x4096_1_1_0_0_n_n.contr.Idx) :
    (dot_S64x128_S4096x128_S64x4096_1_1_0_0_n_n.rhsIdx i q 0).val = (i 1).val := by
  unfold DotDims.rhsIdx
  rw [dif_neg (show ¬(0 : Fin S4096x128.rank) ∈ dot_S64x128_S4096x128_S64x4096_1_1_0_0_n_n.rhsBatch by decide), dif_pos (show (0 : Fin S4096x128.rank) ∈ dot_S64x128_S4096x128_S64x4096_1_1_0_0_n_n.rhsNonContracting by decide)]
  rfl
theorem rhs_axis1 (i : S64x4096.Idx) (q : dot_S64x128_S4096x128_S64x4096_1_1_0_0_n_n.contr.Idx) :
    (dot_S64x128_S4096x128_S64x4096_1_1_0_0_n_n.rhsIdx i q 1).val = (q ⟨0, by decide⟩).val :=
  dot_S64x128_S4096x128_S64x4096_1_1_0_0_n_n.rhsIdx_val_of_single rfl i q

/-- The matrix product of two blocks into the zero accumulator, read at an entry: the sum over the lanes. -/
theorem matmul_zero_apply (W : FVec Ideal S64x128 .bf16) (X : FVec Ideal S4096x128 .bf16) (i : S64x4096.Idx) :
    matmul dot_S64x128_S4096x128_S64x4096_1_1_0_0_n_n none W X (constant (F := Ideal) S64x4096 .f32 0x00000000#32) i
      = ∑ k : Fin 128, W (wAt i k) * X (xAt i k) := by
  simp only [matmul]
  rw [Ideal.matmul_constant_zero_apply, ← Equiv.sum_comp (ValueIdx.contrEquiv1 dot_S64x128_S4096x128_S64x4096_1_1_0_0_n_n 128 rfl rfl).symm]
  refine Finset.sum_congr rfl fun k _ => ?_
  have hk := ValueIdx.contrEquiv1_symm_val dot_S64x128_S4096x128_S64x4096_1_1_0_0_n_n 128 rfl rfl k
  have el : dot_S64x128_S4096x128_S64x4096_1_1_0_0_n_n.lhsIdx i ((ValueIdx.contrEquiv1 dot_S64x128_S4096x128_S64x4096_1_1_0_0_n_n 128 rfl rfl).symm k) = wAt i k := funext fun a => Fin.ext (by
    match a with
    | ⟨0, _⟩ => exact lhs_axis0 _ _
    | ⟨1, _⟩ => exact (lhs_axis1 _ _).trans hk)
  have er : dot_S64x128_S4096x128_S64x4096_1_1_0_0_n_n.rhsIdx i ((ValueIdx.contrEquiv1 dot_S64x128_S4096x128_S64x4096_1_1_0_0_n_n 128 rfl rfl).symm k) = xAt i k := funext fun a => Fin.ext (by
    match a with
    | ⟨0, _⟩ => exact rhs_axis0 _ _
    | ⟨1, _⟩ => exact (rhs_axis1 _ _).trans hk)
  rw [el, er]

/-- The body's payload of two loaded blocks is their block product. -/
theorem pay_eq (W : Vec Ideal S64x128 .f32) (X : Vec Ideal S4096x128 .f32) : k0_pay1 (F := Ideal) W X = blockDots W X := by
  funext j
  unfold k0_pay1
  show matmul dot_S64x128_S4096x128_S64x4096_1_1_0_0_n_n none
      (truncf .bf16 (shapeCast S64x128 W shapeCasts_S64x128_S64x128) bitsLt_bf16_f32)
      (truncf .bf16 (shapeCast S4096x128 X shapeCasts_S4096x128_S4096x128) bitsLt_bf16_f32)
      (constant (F := Ideal) S64x4096 .f32 0x00000000#32) j = _
  rw [matmul_zero_apply, shapeCast_self, shapeCast_self]
  rfl

end Cert.KernelIdeal.Payload

end
-- ==== Proof.Spec.lean ====
/-
  What both programs compute, as one function of the reshaped arguments: out[f, n] is the sum over the 128 lanes k of
  w[f, k] * x[n, k] — every weight row dotted with every row of x — over the extended reals. No program is named
  here: the shapes are the literal ones.
-/
import Idealize.ShloMosaic.PureOps.Ideal
import Idealize.ShloMosaic.Lib.ValueIdx
import Idealize.ShloMosaic.Lib.Pipeline.Value

noncomputable section

namespace Cert.Spec

open Idealize.ShloMosaic

abbrev Sw : Shape := ⟨2, ![64, 128]⟩
abbrev Sx : Shape := ⟨2, ![116250, 128]⟩
abbrev So : Shape := ⟨2, ![64, 116250]⟩

/-- The weight entry output entry `i = (f, n)` meets at lane `k`: (f, k). -/
abbrev wOf (i : So.Idx) (k : Fin 128) : Sw.Idx := fun a => match a with
  | ⟨0, _⟩ => ⟨(i 0).val, (i 0).isLt⟩
  | ⟨1, _⟩ => ⟨k.val, k.isLt⟩
/-- The entry of x it meets there: (n, k). -/
abbrev xOf (i : So.Idx) (k : Fin 128) : Sx.Idx := fun a => match a with
  | ⟨0, _⟩ => ⟨(i 1).val, (i 1).isLt⟩
  | ⟨1, _⟩ => ⟨k.val, k.isLt⟩

/-- Every weight row dotted with every row of x. -/
def rowDots (W : Vec Ideal Sw .f32) (X : Vec Ideal Sx .f32) : Vec Ideal So .f32 :=
  fun i => ∑ k : Fin 128, W (wOf i k) * X (xOf i k)

abbrev Sx4 : Shape := ⟨4, ![1, 1, 116250, 128]⟩
abbrev Sw4 : Shape := ⟨4, ![64, 1, 1, 128]⟩
abbrev So4 : Shape := ⟨4, ![5, 64, 62, 375]⟩

theorem casts_w : Sw4.ShapeCasts Sw := by decide
theorem casts_x : Sx4.ShapeCasts Sx := by decide
theorem casts_o : So.ShapeCasts So4 := by decide

/-- The whole result from the arguments as given: both are read row-major as matrices (64 x 128 weights, 116250 x 128
    rows of x), every weight row is dotted with every row of x, and the 64 x 116250 products are read row-major as a
    5 x 64 x 62 x 375 array. -/
def result (x : Vec Ideal Sx4 .f32) (w : Vec Ideal Sw4 .f32) : Vec Ideal So4 .f32 :=
  shapeCast So4 (rowDots (shapeCast Sw w casts_w) (shapeCast Sx x casts_x)) casts_o

end Cert.Spec

end
-- ==== Proof.IdealRun.lean ====
/-
  The idealized kernel's run with every array named. The proof data: the weights' buffer holds the weight block at
  every point; the buffer of x holds, on the rows inside the array, block t of x, and the result's buffer, on the
  columns inside the array, block t of the row-by-row dot products of the WHOLE arrays. The last block of x (rows
  114688 onwards: 1562 of its 4096 rows are inside the array) is cut by the fetch, and the rows past the array's end
  hold words nothing names; a column of the block product reads ONE row of x, so the columns inside the array never
  see them, and the write-back moves only those columns.
-/
import proofs.«162560_j7292854468609_1_alg».proof.Proof.IdealBody
import proofs.«162560_j7292854468609_1_alg».proof.Proof.IdealPayload
import proofs.«162560_j7292854468609_1_alg».proof.Proof.Spec
import Idealize.ShloMosaic.Lib.Pipeline.FrameSuffix
import Idealize.ShloMosaic.Lib.Pipeline.Value

set_option maxRecDepth 16384

noncomputable section

namespace Cert.KernelIdeal.Exact

open Cert.KernelIdeal Cert.KernelIdeal.Gen Cert.KernelIdeal.Payload
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ) (ρ : Dev nD → PrngReg)

/-- The reshaped weights and the reshaped x, as the region finds them. -/
abbrev wArr (c : Dev nD) : Vec Ideal S64x128 .f32 := V m c main_v1
abbrev xArr (c : Dev nD) : Vec Ideal S116250x128 .f32 := V m c main_v0

/-- The whole result: every weight row dotted with every row of x. -/
abbrev outArr (c : Dev nD) : Vec Ideal S64x116250 .f32 := Cert.Spec.rowDots (wArr m c) (xArr m c)

/-- The weight block, and block `t` of x on its rows inside the array. -/
abbrev wBlk (c : Dev nD) (t : Fin cfg0.N) : Vec Ideal S64x128 .f32 := iblk m c 0 t
abbrev xBlk (c : Dev nD) (t : Fin cfg0.N) : (win0_1.xblock (grid0.coords t)).Idx → Ideal .f32 := iblk m c 1 t

/-- The buffer of x after a fetch: block `t` on the rows inside the array, `d` past its end. -/
abbrev xFilled (c : Dev nD) (t : Fin cfg0.N) (d : S4096x128.Idx → Ideal .f32) : Vec Ideal S4096x128 .f32 :=
  win0_1.fill (grid0.coords t) d (xBlk m c t)

/-- The proof data. Past the arrays' ends the two cut windows are filled out with zero, which nothing reads. -/
def dats (_ : Fin 1) (c : Dev nD) : Dat τ (Elt Ideal) Unit ℕ (UR sig nD τ) ℕ cfg0 c where
  A w := V m c (Pipeline.arrRef spec0 w)
  after w t := match w with
    | ⟨0, _⟩ => wBlk m c t
    | ⟨1, _⟩ => xFilled m c t (fun _ => (0 : EReal))
    | ⟨2, _⟩ => win0_2.fill (grid0.coords t) (fun _ => (0 : EReal)) ((win0_2.blk t).view.read (Elt Ideal) (outArr m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = xFilled m c t (fun _ => (0 : EReal)) := by dsimp only [dats]
theorem after0_2 (c : Dev nD) (t : Fin cfg0.N) : (dats m 0 c).after 2 t
    = win0_2.fill (grid0.coords t) (fun _ => (0 : EReal)) ((win0_2.blk t).view.read (Elt Ideal) (outArr m c)) := by dsimp only [dats]

/-- The weights' buffer holds the weight block at every point (fetched once, never moved). -/
theorem before0_0 (c : Dev nD) (t : Fin cfg0.N) (d) : (dats m 0 c).before 0 t d = iblk m c 0 t :=
  before0_0_of m (dats m 0 c) (A_eq m c 0) (after0_0 m c) t d

/-- The buffer of x is fetched at every point. -/
theorem before0_1 (c : Dev nD) (t : Fin cfg0.N) (d) : (dats m 0 c).before 1 t d = xFilled m c t d := by
  rw [(dats m 0 c).before_fetched 1 t (fetch0_1 t)]
  unfold Dat.fetched Dat.blockOf
  rw [A_eq]
  rfl

/-! ## Where the blocks lie -/

/-- The printed index maps and cuts, decided over the 29 points: the weight block is always block (0, 0); point `t`
    fetches rows `4096 t` onwards of x and writes back columns `4096 t` onwards of the result; the two are cut alike
    (at the last point, to 1562), and neither is cut on its other axis. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_1.xsize (grid0.coords t) (0 : Fin 2) = win0_2.xsize (grid0.coords t) (1 : Fin 2)
    ∧ win0_1.xsize (grid0.coords t) (1 : Fin 2) = 128
    ∧ win0_2.xsize (grid0.coords t) (0 : Fin 2) = 64
    ∧ win0_2.xsize (grid0.coords t) (1 : Fin 2) = min 4096 (116250 - t.val * 4096) :=
  (by decide +kernel : ∀ t : Fin grid0.N, _)

/-- THE BLOCK: whatever fills the buffer of x past the array's end, the columns of the body's payload that lie inside
    the array are block `t` of the whole result — column `r` of the block product reads row `r` of the buffer only,
    which for a column inside the array is row `4096 t + r` of x. -/
theorem block_eq (c : Dev nD) (t : Fin cfg0.N) (d : S4096x128.Idx → Ideal .f32) :
    win0_2.cut (grid0.coords t) (k0_pay1 (F := Ideal) (wBlk m c t) (xFilled m c t d))
      = (win0_2.blk t).view.read (Elt Ideal) (outArr m c) := by
  rw [pay_eq]
  obtain ⟨e00, e01, e10, e11, e20, e21, ex0, ex1, ey0, ey1⟩ := idx_facts t
  funext j
  show blockDots (wBlk m c t) (xFilled m c t d) (win0_2.xinj (grid0.coords t) j) = outArr m c ((win0_2.blk t).view.emb j)
  unfold blockDots
  show _ = ∑ k : Fin 128, wArr m c (Cert.Spec.wOf ((win0_2.blk t).view.emb j) k) * xArr m c (Cert.Spec.xOf ((win0_2.blk t).view.emb j) k)
  refine Finset.sum_congr rfl fun k _ => ?_
  have hj0 : (j 0).val < win0_2.xsize (grid0.coords t) (0 : Fin 2) := (j 0).isLt
  have hj1 : (j 1).val < win0_2.xsize (grid0.coords t) (1 : Fin 2) := (j 1).isLt
  have hk : k.val < 128 := k.isLt
  have hw : wBlk m c t (wAt (win0_2.xinj (grid0.coords t) j) k) = wArr m c (Cert.Spec.wOf ((win0_2.blk t).view.emb j) k) := by
    show V m c main_v1 ((win0_0.blk t).view.emb (wAt (win0_2.xinj (grid0.coords t) j) k)) = V m c main_v1 _
    refine congrArg _ (funext fun a => Fin.ext ?_)
    match a with
    | ⟨0, _⟩ => show win0_0.index t (0 : Fin 2) * 64 + 1 * (j 0).val = win0_2.index t (0 : Fin 2) * 64 + 1 * (j 0).val; omega
    | ⟨1, _⟩ => show win0_0.index t (1 : Fin 2) * 128 + 1 * k.val = k.val; omega
  have hx : xFilled m c t d (xAt (win0_2.xinj (grid0.coords t) j) k) = xArr m c (Cert.Spec.xOf ((win0_2.blk t).view.emb j) k) := by
    have hmv : win0_1.moved (grid0.coords t) (xAt (win0_2.xinj (grid0.coords t) j) k) = true :=
      (win0_1.moved_iff _ _).mpr fun a => by
        match a with
        | ⟨0, _⟩ => show (j 1).val < win0_1.xsize (grid0.coords t) (0 : Fin 2); omega
        | ⟨1, _⟩ => show k.val < win0_1.xsize (grid0.coords t) (1 : Fin 2); omega
    show win0_1.fill (grid0.coords t) d (xBlk m c t) _ = _
    unfold Window.fill
    rw [dif_pos hmv]
    show V m c main_v0 ((win0_1.blk t).view.emb _) = V m c main_v0 _
    refine congrArg _ (funext fun a => Fin.ext ?_)
    match a with
    | ⟨0, _⟩ => show win0_1.index t (0 : Fin 2) * 4096 + 1 * (j 1).val = win0_2.index t (1 : Fin 2) * 4096 + 1 * (j 1).val; omega
    | ⟨1, _⟩ => show win0_1.index t (1 : Fin 2) * 128 + 1 * k.val = k.val; omega
  rw [hw, hx]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))

/-- and what it returns: the two cut windows' buffers stated on the part inside the array only. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ (∃ d, owns (c : Thread nD τ) (st0_1 t) fullShare (win0_1.fill (grid0.coords t) d (win0_1.cut (grid0.coords t) ((dats m 0 c).after 1 t))))
    ∗ (∃ d, owns (c : Thread nD τ) (st0_2 t) fullShare (win0_2.fill (grid0.coords t) d (win0_2.cut (grid0.coords t) ((dats m 0 c).after 2 t)))))

theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2]
  iintro ⟨HΦ, Ho, ⟨%d0, H0⟩, ⟨%d1, H1⟩, ⟨%d2, H2⟩⟩
  iapply (Cert.KernelIdeal.Body.sound_kernel c Set.univ (grid0.coords t) _ _ _ _ _ _ (iblk m c 0 t) (xFilled m c t d1) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    rw [win0_1.cut_fill]
    iexact H1
  · iexists (k0_pay1 (F := Ideal) (wBlk m c t) (xFilled m c t d1))
    rw [win0_2.cut_fill, ← block_eq m c t d1, win0_2.fill_cut]
    iexact H2

/-- The library's body obligation, the two cut windows loose. -/
theorem body_obligation (c : Dev nD) : BodyObligationLoose (dats m 0 c) (defs₀ (F := Ideal)) Variants.none () Set.univ := fun t => by
  rw [bigSep_W0, bigSep_W0]
  exact sound_body m c t

/-! ## The run and the frame -/

set_option backward.isDefEq.respectTransparency.types false in
/-- Every weakly fair execution of @main terminates, nothing faulting, with every array of the pipeline at what the
    library computes from the proof data and every other unscoped buffer as the reshape after the region leaves it. -/
theorem run_main : θ_run defs (onTc (τ := τ) (main (F := Ideal))) (s₀ m ρ)
    (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame of the idealized kernel. -/
theorem frame : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  frame_of m ρ (dats m) (A_eq m) (run_main m ρ)

end Cert.KernelIdeal.Exact

end
-- ==== Proof.IdealValue.lean ====
/-
  The idealized kernel's result. Point t writes back block t of the row-by-row dot products (its columns inside the
  array); the 29 column blocks — 28 of 4096 columns and a last one of 1562 — cover all 116250 columns, so the result
  array of the region ends holding every weight row dotted with every row of x; the two arrays the region reads are
  the arguments read row-major as matrices, and the line after the region reads the products row-major as the
  5 x 64 x 62 x 375 result.
-/
import proofs.«162560_j7292854468609_1_alg».proof.Proof.IdealRun

set_option maxRecDepth 16384

noncomputable section

namespace Cert.KernelIdeal.Exact

open Cert.KernelIdeal Cert.KernelIdeal.Gen Cert.KernelIdeal.Payload
open Idealize.ShloMosaic Idealize.ShloMosaic.TcCoe Idealize.ShloMosaic.Tactic
open Idealize.SL Idealize.SL.Sem
open Idealize.ShloMosaic.Pipeline (Dat Cfg Window)

variable (m : (ℓ : Loc nD τ sig) → Buf (Elt Ideal) ℓ) (ρ : Dev nD → PrngReg)

/-- What point `t` writes back: block `t` of the whole result. -/
theorem flushed_eq (c : Dev nD) (t : Fin cfg0.N) :
    (dats m 0 c).flushed 2 t = ((cfg0.win 2).blk t).view.read (Elt Ideal) (outArr m c) := by
  show (cfg0.win 2).cut (grid0.coords t) ((dats m 0 c).after 2 t) = _
  rw [after0_2]
  exact win0_2.cut_fill _ _ _

/-- An entry of the result array is in point `t`'s block iff each coordinate is in the block's range cut at the array's end. -/
theorem mem_blk (t : Fin cfg0.N) (i : S64x116250.Idx) :
    i ∈ ((cfg0.win 2).blk t).view.set ↔ ∀ a : Fin 2, win0_2.index t a * S64x4096.size a ≤ (i a).val
      ∧ (i a).val < win0_2.index t a * S64x4096.size a + win0_2.xsize (grid0.coords t) a := by
  show i ∈ ((View.whole main_v2).slice (win0_2.rect t)).set ↔ _
  rw [View.set_slice_whole, Rect.mem_set_unit]
  exact Iff.rfl

/-- Column `n` lies in the block of point `n / 4096`, which is written back. -/
theorem cover (i : S64x116250.Idx) : ∃ t : Fin cfg0.N, (cfg0.win 2).flush t = true ∧ i ∈ ((cfg0.win 2).blk t).view.set := by
  have hi0 : (i 0).val < 64 := (i 0).isLt
  have hi1 : (i 1).val < 116250 := (i 1).isLt
  have hN : cfg0.N = 29 := N_0
  have hlt : (i 1).val / 4096 < cfg0.N := by rw [hN]; omega
  obtain ⟨-, -, -, -, e20, e21, -, -, ey0, ey1⟩ := idx_facts (⟨(i 1).val / 4096, hlt⟩ : Fin cfg0.N)
  have e21' : win0_2.index (⟨(i 1).val / 4096, hlt⟩ : Fin cfg0.N) (1 : Fin 2) = (i 1).val / 4096 := e21
  have ey1' : win0_2.xsize (grid0.coords (⟨(i 1).val / 4096, hlt⟩ : Fin cfg0.N)) (1 : Fin 2) = min 4096 (116250 - (i 1).val / 4096 * 4096) := ey1
  refine ⟨⟨(i 1).val / 4096, hlt⟩, flush0_2 _, ?_⟩
  rw [mem_blk]
  intro a
  match a with
  | ⟨0, _⟩ =>
    show win0_2.index _ (0 : Fin 2) * 64 ≤ (i 0).val ∧ (i 0).val < win0_2.index _ (0 : Fin 2) * 64 + win0_2.xsize _ (0 : Fin 2)
    omega
  | ⟨1, _⟩ =>
    show win0_2.index _ (1 : Fin 2) * 4096 ≤ (i 1).val ∧ (i 1).val < win0_2.index _ (1 : Fin 2) * 4096 + win0_2.xsize _ (1 : Fin 2)
    rw [e21', ey1']
    omega

/-- THE RESULT ARRAY of the region after the run: every weight row dotted with every row of x. -/
theorem final (c : Dev nD) : (dats m 0 c).arrAt 2 cfg0.N = outArr m c :=
  (dats m 0 c).arrAt_eq_of_cover 2 (outArr m c) (fun t _ => flushed_eq m c t) cover

/-- The weights the region reads are the argument w read row-major as a 64 x 128 matrix, -/
theorem wArr_eq (c : Dev nD) :
    wArr m c = shapeCast S64x128 (m ((c : Thread nD τ).loc main_arg1)) shapeCasts_S64x1x1x128_S64x128 := by
  show StableHlo.after hostOps0 (fun b => m (c, b)) (Proc.devRef .tc main_v1) = _
  after_results
  rfl
/-- and the rows of x the argument x read row-major as a 116250 x 128 matrix. -/
theorem xArr_eq (c : Dev nD) :
    xArr m c = shapeCast S116250x128 (m ((c : Thread nD τ).loc main_arg0)) shapeCasts_S1x1x116250x128_S116250x128 := by
  show StableHlo.after hostOps0 (fun b => m (c, b)) (Proc.devRef .tc main_v0) = _
  after_results
  rfl

/-- What the line after the region leaves in the result: the specification's result of the arguments. -/
theorem tail_eq (c : Dev nD) :
    Pipeline.afterTail₀ cfgs (dats m) 0 (V0 m) [hostOps1] c main_v3
      = Cert.Spec.result (m ((c : Thread nD τ).loc main_arg0)) (m ((c : Thread nD τ).loc main_arg1)) := by
  have e : Pipeline.withArrays spec0 c (V0 m c) (fun w => (dats m 0 c).arrAt w cfg0.N) (Proc.devRef .tc main_v2) = outArr m c :=
    (Pipeline.withArrays_arr spec0 launch0.win.arr_inj c _ _ 2).trans (final m c)
  unfold Pipeline.afterTail₀
  show StableHlo.after hostOps1 _ (Proc.devRef .tc main_v3) = _
  after_results
  rw [e]
  unfold Cert.Spec.result
  show shapeCast _ (Cert.Spec.rowDots (wArr m c) (xArr m c)) _ = _
  rw [wArr_eq, xArr_eq]
  rfl

/-- The run, read: the result at the specification's function of the arguments, the arguments unchanged. -/
theorem run : θ_run defs (onTc (τ := τ) (main (F := Ideal))) ⟨m, fun _ => 0, ρ⟩ fun r => ∀ c : Dev nD,
      r.2.mem ((c.tc : Thread nD τ).loc main_v3) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨((h c).2 main_v3 (Pipeline.mem_restRefs_of main_v3 (by decide) (by decide))).trans (tail_eq m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.KernelIdeal.Exact

end
-- ==== Proof.RefValue.lean ====
/-
  The reference at the ideal instance computes the same function: its dot_general of the two reshaped arguments, read
  at an entry (f, n), is the sum over the 128 lanes of w[f, k] * x[n, k], and its last line is the same row-major
  reading of the 64 x 116250 products.
-/
import proofs.«162560_j7292854468609_1_alg».proof.Proof.Gen.ReferenceIdeal.Run
import proofs.«162560_j7292854468609_1_alg».proof.Proof.Gen.ReferenceIdeal.Read
import proofs.«162560_j7292854468609_1_alg».proof.Proof.Spec

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.StableHlo

/-- The host's contraction of the reshaped arguments is every weight row dotted with every row of x. -/
theorem dots_eq (x0 : (⟨S1x1x116250x128, .f32⟩ : BufTy).Contents (Elt Ideal)) (x1 : (⟨S64x1x1x128, .f32⟩ : BufTy).Contents (Elt Ideal)) :
    val_main_v2 (F := Ideal) x0 x1 = Cert.Spec.rowDots (val_main_v0 (F := Ideal) x1) (val_main_v1 (F := Ideal) x0) := by
  funext i
  rw [val_main_v2_apply]
  rfl

/-- The reference's last stage is the specification's result. -/
theorem result_eq (x0 : (⟨S1x1x116250x128, .f32⟩ : BufTy).Contents (Elt Ideal)) (x1 : (⟨S64x1x1x128, .f32⟩ : BufTy).Contents (Elt Ideal)) :
    val_main_v3 (F := Ideal) x0 x1 = Cert.Spec.result x0 x1 := by
  unfold val_main_v3
  rw [dots_eq]
  rfl

/-- The reference's run, its result named by the specification. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v3) = Cert.Spec.result (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans ((val_main_v3_eq (F := Ideal) _ _).trans (result_eq _ _)), (h c).2⟩) (Cert.ReferenceIdeal.Value.run (F := Ideal) m ρ)

end Cert.ReferenceIdeal.RefValue

end
-- ==== Proof.lean ====
/-
  The kernel computes out[f, n] = sum over the 128 lanes k of w[f, k] * x[n, k] — a 64 x 128 weight matrix against the
  116250 rows of x — in 29 blocks of 4096 rows of x, the last holding only 1562 rows of the array, and then reads the
  64 x 116250 products row-major as a 5 x 64 x 62 x 375 array; the reference contracts the same two matrices in one
  dot_general and reads the products the same way.

  At the ideal instance a change of float format is the identity and the matrix unit's product into a zero
  accumulator is the plain sum, so a block's column r is the dot products of the weight rows with row r of the block
  of x: the columns inside the array read only rows inside the array, whatever the fetch left past the array's end in
  the last block, and only those columns are written back. The 29 column blocks cover the result, which is therefore
  the reference's contraction entry by entry (the same finite sum of the same products: no law beyond that is
  needed, and the precondition is never opened).

  The frames: of the idealized kernel, from that run; of the reference, from its run; of the kernel read at words,
  where the matrix unit's product is a function of its whole right operand and so of the unnamed rows, from a run
  that says nothing of what the three staged windows hold — the arguments are not among the staged arrays.
  No operation was rewritten by the idealization, so the preserves conjunct is trivial.
-/
import proofs.«162560_j7292854468609_1_alg».proof.Defs
import proofs.«162560_j7292854468609_1_alg».proof.Proof.Gen.Kernel
import proofs.«162560_j7292854468609_1_alg».proof.Proof.Gen.KernelIdeal
import proofs.«162560_j7292854468609_1_alg».proof.Proof.Gen.ReferenceIdeal
import proofs.«162560_j7292854468609_1_alg».proof.Proof.Gen.Pre_finite_inputs
import proofs.«162560_j7292854468609_1_alg».proof.Proof.Gen.ReferenceIdeal.Run
import proofs.«162560_j7292854468609_1_alg».proof.Proof.Gen.ReferenceIdeal.Read
import proofs.«162560_j7292854468609_1_alg».proof.Proof.BitsFrame
import proofs.«162560_j7292854468609_1_alg».proof.Proof.IdealValue
import proofs.«162560_j7292854468609_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.FrameProof.frame (F := Bits) m ρ

theorem frame_kernelIdeal : Cert.frame_KernelIdeal := fun m ρ _ => Cert.KernelIdeal.Exact.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result at the specification's function of their arguments, and the arguments agree. -/
theorem algebraic : Cert.algebraic_KernelIdeal_ReferenceIdeal := by
  intro m ρ m' ρ' _ hagree
  refine ⟨fun c => Cert.Spec.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Exact.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
